-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1 : Shape := ⟨2, ![1024, 1]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1 : S_.BroadcastsInDim S1024x1 (![] : Fin 0 → Fin S1024x1.rank)
  reducesTo_S1024x1_S_d0_1 : S1024x1.ReducesTo [0, 1] S_

variable [Facts]

def fn {F : FTy → Type} [FloatOps F] (main_arg0 : FVec F S16x1024x1024 .f32) (main_arg1 : FVec F S16x1024x1024 .f32) (main_arg2 : FVec F S1024x1 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S1024x1 .f32 := Host.absf main_arg2
  let main_cst_2 : FVec F S_ .f32 := constant S_ .f32 0x7F800000#32
  let main_v10 : FVec F S1024x1 .f32 := broadcastInDim S1024x1 ![] bcast_S_S1024x1 main_cst_2
  let main_v11 : IVec S1024x1 1 := cmpf .olt main_v9 main_v10
  let main_c_3 : IVec S_ 1 := constantI S_ 1 1#1
  let main_v12 : IVec S_ 1 := (fun x v => Host.reduce IntOp.andi x v reducesTo_S1024x1_S_d0_1 h_S_) main_v11 main_c_3
  let main_v13 : IVec S_ 1 := andi main_v8 main_v12
  main_v13
-- ==== Kernel.lean ====
abbrev S16x1024x1024 : Shape := ⟨3, ![16, 1024, 1024]⟩
abbrev S1024x1 : Shape := ⟨2, ![1024, 1]⟩
abbrev S1x1024 : Shape := ⟨2, ![1, 1024]⟩
abbrev S1x512x1024 : Shape := ⟨3, ![1, 512, 1024]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1, .f32⟩
  | .hbm, ⟨3, _⟩ => ⟨S1x1024, .f32⟩
  | .hbm, ⟨4, _⟩ => ⟨S16x1024x1024, .f32⟩
  | .local _ .vmem, ⟨0, _⟩ => ⟨S1x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x512, .f32⟩
  | .local _ .vmem, ⟨6, _⟩ => ⟨S1x512x512, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  shapeCasts_S1024x1_S1x1024 : S1024x1.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  transposes_S512x1024_p1_0_S1024x512 : S512x1024.Transposes [1, 0] S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x1024x1024.size a
  hwx0_1 : ∀ i : grid0.Coords, EltTy.bits .f32 = 32 ∨ (Rect.block (s := S16x1024x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S16x1024x1024.size a
  hwx0_2 : ∀ i : grid0.Coords, EltTy.bits .f32 = 32 ∨ (Rect.block (s := S16x1024x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S16x1024x1024.size a
  hwx0_3 : ∀ i : grid0.Coords, EltTy.bits .f32 = 32 ∨ (Rect.block (s := S16x1024x1024) S1x512x512.size (cc0_transform_3 i) (hinb0_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1024x1 : Shape := ⟨2, ![1024, 1]⟩
abbrev S1024 : Shape := ⟨1, ![1024]⟩
abbrev S1x1x1024 : Shape := ⟨3, ![1, 1, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1, .f32⟩
  | .hbm, ⟨3, _⟩ => ⟨S1024, .f32⟩
  | .hbm, ⟨4, _⟩ => ⟨S1x1x1024, .f32⟩
  | .hbm, ⟨5, _⟩ => ⟨S16x1024x1024, .f32⟩
  | .hbm, ⟨6, _⟩ => ⟨S16x1024x1024, .f32⟩
  | .hbm, ⟨7, _⟩ => ⟨S16x1024x1024, .f32⟩
  | .hbm, ⟨8, _⟩ => ⟨S_, .f32⟩
  | .hbm, ⟨9, _⟩ => ⟨S16x1024, .f32⟩
  | .hbm, ⟨10, _⟩ => ⟨S16x1024x1, .f32⟩
  | .hbm, ⟨11, _⟩ => ⟨S_, .f32⟩
  | .hbm, ⟨12, _⟩ => ⟨S16x1024x1, .f32⟩
  | .hbm, ⟨13, _⟩ => ⟨S16x1024x1, .f32⟩
  | .hbm, ⟨14, _⟩ => ⟨S16x1024x1, .f32⟩
  | .hbm, ⟨15, _⟩ => ⟨S16x1024x1024, .f32⟩
  | .hbm, ⟨16, _⟩ => ⟨S16x1024x1024, .f32⟩
  | .hbm, ⟨17, _⟩ => ⟨S1x1x1024, .f32⟩
  | .hbm, ⟨18, _⟩ => ⟨S16x1024x1024, .f32⟩
  | .hbm, ⟨19, _⟩ => ⟨S16x1024x1024, .f32⟩
  | .hbm, ⟨20, _⟩ => ⟨S16x1024x1024, .f32⟩
  | .hbm, ⟨21, _⟩ => ⟨S_, .f32⟩
  | .hbm, ⟨22, _⟩ => ⟨S16x1024, .f32⟩
  | .hbm, ⟨23, _⟩ => ⟨S16x1024x1, .f32⟩
  | .hbm, ⟨24, _⟩ => ⟨S_, .f32⟩
  | .hbm, ⟨25, _⟩ => ⟨S16x1024x1, .f32⟩
  | .hbm, ⟨26, _⟩ => ⟨S16x1024x1, .f32⟩
  | .hbm, ⟨27, _⟩ => ⟨S16x1024x1, .f32⟩
  | .hbm, ⟨28, _⟩ => ⟨S16x1024x1024, .f32⟩
  | .hbm, ⟨29, _⟩ => ⟨S16x1024x1024, .f32⟩
  | .hbm, ⟨30, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  shapeCasts_S1024x1_S1024 : S1024x1.ShapeCasts S1024
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S16x1024_S16x1024x1_0_1 : S16x1024.BroadcastsInDim S16x1024x1 (![0, 1] : Fin 2 → Fin S16x1024x1.rank)
  bcast_S_S16x1024x1 : S_.BroadcastsInDim S16x1024x1 (![] : Fin 0 → Fin S16x1024x1.rank)
  bcast_S16x1024x1_S16x1024x1024_0_1_2 : S16x1024x1.BroadcastsInDim S16x1024x1024 (![0, 1, 2] : Fin 3 → Fin S16x1024x1024.rank)
  dot_S16x1024x1024_S16x1024x1024_S16x1024x1024_2_2_1_1_0_0_wf : DotDims.WF S16x1024x1024 S16x1024x1024 S16x1024x1024 [2] [2] [1] [1] [0] [0]

variable [Facts₀]

def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf

class Facts : Prop extends Facts₀ where

variable [Facts]
-- ==== Proof.Spec.lean ====
/-
  The function both programs compute, on rows.

  Two batches of sequences `a, b : [16, 1024, 1024]` and one weight per feature. Each row (a position's 1024 features)
  is multiplied feature by feature with the weights and scaled to unit Euclidean length, the squared length floored at a
  small positive constant before the reciprocal square root is taken. The result at `(batch, i, j)` is the inner product
  of row `i` of `a` with row `j` of `b`, both so normalised: a cosine similarity. Everything is read on the extended
  reals, where a float is its exact value and the bf16 rounding before the product is the identity.
-/
import Idealize.ShloMosaic.PureOps.Ideal
import Idealize.ShloMosaic.Lib.ValueIdx

noncomputable section

namespace Cert.Cosine

open Idealize.ShloMosaic

/-- The floor under a row's squared length: the single-precision word both programs print (about 1e-12). -/
def floorSq : EReal := Ideal.ofBits .f32 0x2B8CBCCC#32

/-- Entry `d` of a row weighted feature by feature and scaled to unit length: the weighted entry times the reciprocal
    square root of the row's floored squared length. -/
def unitOf (row wt : Fin 1024 → EReal) (d : Fin 1024) : EReal :=
  (row d * wt d) * Ideal.rsqrt (max (∑ k : Fin 1024, (row k * wt k) * (row k * wt k)) floorSq)

/-- The inner product of two rows, each weighted and scaled to unit length. -/
def cosOf (ra rb wt : Fin 1024 → EReal) : EReal :=
  ∑ k : Fin 1024, unitOf ra wt k * unitOf rb wt k

/-- THE RESULT ARRAY as one function of the three argument arrays: entry `(batch, i, j)` is the cosine of row
    `(batch, i)` of `a` and row `(batch, j)` of `b`, the weights read down the column `kw`. -/
def cosine (a b : (⟨3, ![16, 1024, 1024]⟩ : Shape).Idx → EReal) (kw : (⟨2, ![1024, 1]⟩ : Shape).Idx → EReal) :
    (⟨3, ![16, 1024, 1024]⟩ : Shape).Idx → EReal :=
  fun i => cosOf (fun d => a (ValueIdx.ix3 (i 0) (i 1) d)) (fun d => b (ValueIdx.ix3 (i 0) (i 2) d))
    (fun d => kw (ValueIdx.ix2 d (0 : Fin 1)))

end Cert.Cosine

end
-- ==== Proof.RefSide.lean ====
/-
  The reference's result, entry by entry, is the cosine of two rows.

  The reference multiplies every row of `a` and of `b` with the weights (the weight column reshaped to a vector and
  broadcast over batches and positions), divides each weighted row by its floored Euclidean length (a sum over the feature
  axis, the floor, a reciprocal square root, broadcast back over the features), and contracts the feature axis of the two
  normalised arrays batch by batch. Read one operation at a time at an index, entry `(batch, i, j)` of the result is the
  sum over the features of the normalised row `i` of `a` times the normalised row `j` of `b`.
-/
import proofs.«109407_j21715354648692_1_alg».proof.Proof.Gen.ReferenceIdeal.Read
import proofs.«109407_j21715354648692_1_alg».proof.Proof.Spec

noncomputable section

namespace Cert.Cosine.Ref

open Idealize.ShloMosaic Idealize.ShloMosaic.ValueIdx Cert.ReferenceIdeal Cert.ReferenceIdeal.Read Cert.Cosine

variable (x : (⟨S16x1024x1024, .f32⟩ : BufTy).Contents (Elt Ideal)) (kw : (⟨S1024x1, .f32⟩ : BufTy).Contents (Elt Ideal))

/-- The index the feature sum of row `(batch, position)` reads at feature `k`. -/
theorem row_index (j : S16x1024x1024.Idx) (k : Fin 1024) :
    idx_main_v5 (idx_main_v6 (idx_main_v10 j)) k = ix3 (j 0) (j 1) k :=
  funext fun a => by match a with | ⟨0, _⟩ => rfl | ⟨1, _⟩ => rfl | ⟨2, _⟩ => rfl

/-- The weight that multiplies feature `j 2` of `a`, whatever the batch and the position: entry `(j 2, 0)` of the column. -/
theorem weight_a (j : S16x1024x1024.Idx) : val_main_v2 (F := Ideal) kw j = kw (ix2 (j 2) (0 : Fin 1)) := by
  rw [val_main_v2_apply, val_main_v1_apply, val_main_v0_apply]
  exact congrArg kw (funext fun a => Fin.ext (by
    match a with
    | ⟨0, _⟩ => exact Nat.div_one _
    | ⟨1, _⟩ => rfl))

/-- The same for `b` (the reference broadcasts the weights a second time). -/
theorem weight_b (j : S16x1024x1024.Idx) : val_main_v13 (F := Ideal) kw j = kw (ix2 (j 2) (0 : Fin 1)) := by
  rw [val_main_v13_apply, val_main_v12_apply, val_main_v0_apply]
  exact congrArg kw (funext fun a => Fin.ext (by
    match a with
    | ⟨0, _⟩ => exact Nat.div_one _
    | ⟨1, _⟩ => rfl))

/-- Entry `j` of `a` normalised is the unit row's entry. -/
theorem unit_a (j : S16x1024x1024.Idx) :
    val_main_v11 (F := Ideal) x kw j
      = unitOf (fun d => x (ix3 (j 0) (j 1) d)) (fun d => kw (ix2 d (0 : Fin 1))) (j 2) := by
  have hs : ∀ k : Fin 1024, val_main_v4 (F := Ideal) x kw (idx_main_v5 (idx_main_v6 (idx_main_v10 j)) k)
      = (x (ix3 (j 0) (j 1) k) * kw (ix2 k (0 : Fin 1))) * (x (ix3 (j 0) (j 1) k) * kw (ix2 k (0 : Fin 1))) := fun k => by
    rw [val_main_v4_apply, val_main_v3_apply, weight_a, row_index]
    rfl
  rw [val_main_v11_apply, val_main_v10_apply, val_main_v9_apply, val_main_v8_apply, val_main_v7_apply,
    val_main_cst_0_apply, val_main_v6_apply, val_main_v5_apply, val_main_cst_apply, val_main_v3_apply, weight_a]
  simp only [hs]
  unfold unitOf floorSq
  simp only [Ideal.mulf_def, Ideal.maximumf_def, Ideal.hostUnary_rsqrt_def, Ideal.ofBits_def, Ideal.ofBits_zero_f32, zero_add]
  rw [show x j = x (ix3 (j 0) (j 1) (j 2)) from congrArg x (eq_ix3 j)]

/-- The index the feature sum of a row of `b` reads at feature `k`. -/
theorem row_index_b (j : S16x1024x1024.Idx) (k : Fin 1024) :
    idx_main_v16 (idx_main_v17 (idx_main_v21 j)) k = ix3 (j 0) (j 1) k :=
  funext fun a => by match a with | ⟨0, _⟩ => rfl | ⟨1, _⟩ => rfl | ⟨2, _⟩ => rfl

/-- Entry `j` of `b` normalised is the unit row's entry. -/
theorem unit_b (j : S16x1024x1024.Idx) :
    val_main_v22 (F := Ideal) x kw j
      = unitOf (fun d => x (ix3 (j 0) (j 1) d)) (fun d => kw (ix2 d (0 : Fin 1))) (j 2) := by
  have hs : ∀ k : Fin 1024, val_main_v15 (F := Ideal) x kw (idx_main_v16 (idx_main_v17 (idx_main_v21 j)) k)
      = (x (ix3 (j 0) (j 1) k) * kw (ix2 k (0 : Fin 1))) * (x (ix3 (j 0) (j 1) k) * kw (ix2 k (0 : Fin 1))) := fun k => by
    rw [val_main_v15_apply, val_main_v14_apply, weight_b, row_index_b]
    rfl
  rw [val_main_v22_apply, val_main_v21_apply, val_main_v20_apply, val_main_v19_apply, val_main_v18_apply,
    val_main_cst_2_apply, val_main_v17_apply, val_main_v16_apply, val_main_cst_1_apply, val_main_v14_apply, weight_b]
  simp only [hs]
  unfold unitOf floorSq
  simp only [Ideal.mulf_def, Ideal.maximumf_def, Ideal.hostUnary_rsqrt_def, Ideal.ofBits_def, Ideal.ofBits_zero_f32, zero_add]
  rw [show x j = x (ix3 (j 0) (j 1) (j 2)) from congrArg x (eq_ix3 j)]

/-- THE REFERENCE'S RESULT at `(batch, i, j)`: the cosine of row `(batch, i)` of `a` and row `(batch, j)` of `b`. -/
theorem result_at (x0 x1 : (⟨S16x1024x1024, .f32⟩ : BufTy).Contents (Elt Ideal)) (i : S16x1024x1024.Idx) :
    val_main_v23 (F := Ideal) x0 x1 kw i
      = cosOf (fun d => x0 (ix3 (i 0) (i 1) d)) (fun d => x1 (ix3 (i 0) (i 2) d)) (fun d => kw (ix2 d (0 : Fin 1))) := by
  rw [val_main_v23_apply]
  unfold cosOf
  refine Finset.sum_congr rfl fun k _ => ?_
  rw [unit_a, unit_b]
  rfl

end Cert.Cosine.Ref

end
-- ==== Proof.KernelPayload.lean ====
/-
  What the kernel body stores, entry by entry, is the cosine of two rows of its blocks.

  At one grid point the body holds the weights as one row `w : [1, 1024]` and a block of 512 rows of `a` and of `b`.
  It multiplies each block's rows with the weights, takes each weighted row's squared length (a sum along the features),
  floors it, takes the reciprocal square root and scales the row with it; the two scaled blocks, rounded to bf16 (the
  identity on the extended reals), are multiplied as matrices, the second transposed, into a zero accumulator. So entry
  `(r, q)` of the stored block is the sum over the features of the normalised row `r` of the `a` block times the
  normalised row `q` of the `b` block.
-/
import proofs.«109407_j21715354648692_1_alg».proof.Proof.Gen.KernelIdeal.Skeleton
import proofs.«109407_j21715354648692_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Cosine.Body

open Idealize.ShloMosaic Idealize.ShloMosaic.ValueIdx Cert.KernelIdeal Cert.KernelIdeal.Gen Cert.Cosine

variable (w : FVec Ideal S1x1024 .f32) (x : FVec Ideal S1x512x1024 .f32)

/-! ## A block's rows times the weights -/

/-- The block viewed as a matrix, each row multiplied feature by feature with the one row of weights. -/
def weightedBlk : FVec Ideal S512x1024 .f32 :=
  mulf (shapeCast S512x1024 x shapeCasts_S1x512x1024_S512x1024)
    (broadcastTo S512x1024 (shapeCast S1x1024 w shapeCasts_S1x1024_S1x1024) broadcasts_S1x1024_S512x1024)

theorem weightedBlk_apply (r : Fin 512) (k : Fin 1024) :
    weightedBlk w x (ix2 r k) = x (ix3 (0 : Fin 1) r k) * w (ix2 (0 : Fin 1) k) := by
  unfold weightedBlk
  rw [mulf_apply, shapeCast_1ab_ab_apply, broadcastTo_1b_ab_apply, shapeCast_self]

/-! ## The squared lengths of the weighted rows, kept as a column -/

def sqCol : FVec Ideal S512x1 .f32 :=
  shapeCast S512x1 (multiReduction .add [1] S512 (mulf (weightedBlk w x) (weightedBlk w x)) 0x00000000#32 reduces_S512x1024_S512 (.inl rfl) rfl)
    shapeCasts_S512_S512x1

/-- A vector of 512 sums viewed as a column reads, at `(r, 0)`, sum `r`. -/
theorem column_apply (v : FVec Ideal S512 .f32) (r : Fin 512) :
    shapeCast S512x1 v shapeCasts_S512_S512x1 (ix2 r (0 : Fin 1)) = v (ix1 r) :=
  shapeCast_apply v shapeCasts_S512_S512x1 _ _ (by
    rw [Shape.rowMajor_val_two, Shape.rowMajor_val_one]
    show r.val = r.val * 1 + 0
    omega)

theorem sqCol_apply (r : Fin 512) :
    sqCol w x (ix2 r (0 : Fin 1)) = ∑ k : Fin 1024, (x (ix3 (0 : Fin 1) r k) * w (ix2 (0 : Fin 1) k)) * (x (ix3 (0 : Fin 1) r k) * w (ix2 (0 : Fin 1) k)) := by
  unfold sqCol
  refine (column_apply _ r).trans ?_
  refine (Ideal.multiReduction_add_single _ 0x00000000#32 reduces_S512x1024_S512 (.inl rfl) rfl (ix1 r)).trans ?_
  show ∑ k : Fin 1024, mulf (weightedBlk w x) (weightedBlk w x) ((reduces_S512x1024_S512).lift (ix1 r) k) = _
  refine Finset.sum_congr rfl fun k _ => ?_
  have e : (reduces_S512x1024_S512).lift (ix1 r) k = ix2 r k :=
    funext fun a => Fin.ext (by match a with | ⟨0, _⟩ => rfl | ⟨1, _⟩ => rfl)
  rw [e, mulf_apply, weightedBlk_apply]

/-! ## The block's rows scaled to unit length -/

def unitBlk : FVec Ideal S512x1024 .f32 :=
  mulf (weightedBlk w x)
    (broadcastTo S512x1024
      (rsqrt (maximumf (sqCol w x) (broadcast S512x1 (Scalar.ofBits (F := Ideal) .f32 0x2B8CBCCC#32))))
      broadcasts_S512x1_S512x1024)

/-- A column broadcast along the features reads, at `(r, k)`, the column's entry `r`. -/
theorem spread_apply (v : FVec Ideal S512x1 .f32) (r : Fin 512) (k : Fin 1024) :
    broadcastTo S512x1024 v broadcasts_S512x1_S512x1024 (ix2 r k) = v (ix2 r (0 : Fin 1)) :=
  broadcastTo_apply v broadcasts_S512x1_S512x1024 (ix2 r k) (ix2 r (0 : Fin 1)) fun a => by
    match a with
    | ⟨0, _⟩ => show r.val = if (512 : Nat) = 1 then 0 else r.val; rw [if_neg (by decide)]
    | ⟨1, _⟩ => show 0 = if (1 : Nat) = 1 then 0 else k.val; rw [if_pos rfl]

theorem unitBlk_apply (r : Fin 512) (k : Fin 1024) :
    unitBlk w x (ix2 r k) = unitOf (fun d => x (ix3 (0 : Fin 1) r d)) (fun d => w (ix2 (0 : Fin 1) d)) k := by
  unfold unitBlk
  rw [mulf_apply, spread_apply, weightedBlk_apply]
  show _ * Ideal.rsqrt (max (sqCol w x (ix2 r (0 : Fin 1))) (Ideal.ofBits .f32 0x2B8CBCCC#32)) = _
  rw [sqCol_apply]
  rfl

/-! ## The matrix product of the two scaled blocks, read at an entry

The product contracts the features: axis 1 of the left block, axis 0 of the transposed right block; the left block's row
and the right block's column are the entry's coordinates. -/

theorem left_row (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem left_feature (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem right_feature (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem right_column (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- Into the zero accumulator, entry `(r, q)` of the product is the sum over the features `k` of the left block at
    `(r, k)` times the right block at `(k, q)`. -/
theorem product_apply (l : FVec Ideal S512x1024 .bf16) (rt : FVec Ideal S1024x512 .bf16) (r q : Fin 512) :
    matmul dot_S512x1024_S1024x512_S512x512_1_0_0_1_n_n none l rt (constant (F := Ideal) S512x512 .f32 0x00000000#32) (ix2 r q)
      = ∑ k : Fin 1024, l (ix2 r k) * rt (ix2 k q) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 r q) ((contrEquiv1 dot_S512x1024_S1024x512_S512x512_1_0_0_1_n_n 1024 rfl rfl).symm k) = ix2 r k := funext fun a => Fin.ext (by
    match a with
    | ⟨0, _⟩ => exact left_row _ _
    | ⟨1, _⟩ => exact (left_feature _ _).trans hk)
  have er : dot_S512x1024_S1024x512_S512x512_1_0_0_1_n_n.rhsIdx (ix2 r q) ((contrEquiv1 dot_S512x1024_S1024x512_S512x512_1_0_0_1_n_n 1024 rfl rfl).symm k) = ix2 k q := funext fun a => Fin.ext (by
    match a with
    | ⟨0, _⟩ => exact (right_feature _ _).trans hk
    | ⟨1, _⟩ => exact right_column _ _)
  rw [el, er]

/-! ## The stored block -/

variable (xa xb : FVec Ideal S1x512x1024 .f32)

/-- The body's one payload is the product of the two scaled blocks, the second transposed, viewed as a `[1, 512, 512]` block. -/
theorem payload_eq :
    k0_pay1 (F := Ideal) w xa xb
      = shapeCast S1x512x512
          (matmul dot_S512x1024_S1024x512_S512x512_1_0_0_1_n_n none (truncf .bf16 (unitBlk w xa) bitsLt_bf16_f32)
            (transpose S1024x512 [1, 0] (truncf .bf16 (unitBlk w xb) bitsLt_bf16_f32) transposes_S512x1024_p1_0_S1024x512)
            (constant (F := Ideal) S512x512 .f32 0x00000000#32))
          shapeCasts_S512x512_S1x512x512 := rfl

/-- ENTRY `(r, q)` OF THE STORED BLOCK: the cosine of row `r` of the `a` block and row `q` of the `b` block. -/
theorem payload_apply (u : Fin 1) (r q : Fin 512) :
    k0_pay1 (F := Ideal) w xa xb (ix3 u r q)
      = cosOf (fun d => xa (ix3 (0 : Fin 1) r d)) (fun d => xb (ix3 (0 : Fin 1) q d)) (fun d => w (ix2 (0 : Fin 1) d)) := by
  rw [payload_eq]
  refine (shapeCast_ab_1ab_apply _ shapeCasts_S512x512_S1x512x512 u r q).trans ?_
  refine (product_apply _ _ r q).trans ?_
  unfold cosOf
  refine Finset.sum_congr rfl fun k _ => ?_
  rw [transpose_ix2_apply, truncf_apply, truncf_apply, unitBlk_apply, unitBlk_apply]

end Cert.Cosine.Body

end
-- ==== Proof.KernelBlocks.lean ====
/-
  From the kernel's blocks to its result array.

  The grid has a point for every batch, every half of the rows of `a` and every half of the rows of `b`. At a point
  the kernel reads the whole row of weights, the 512 rows of `a` of its batch and row half, the 512 rows of `b` of its
  batch and row half, and writes back the 512 × 512 block of the result at those two halves. The block it writes is the
  block of ONE function of the argument arrays — the cosine of row `i` of `a` and row `j` of `b` — because a row of a
  block is a row of the array, and the weights the kernel reads along a row are the reference's weight column read down
  (the host reshapes the column to a row before the call). The 64 blocks tile the result, so after the run the result
  array is that function.
-/
import proofs.«109407_j21715354648692_1_alg».proof.Proof.Gen.KernelIdeal.Value
import proofs.«109407_j21715354648692_1_alg».proof.Proof.KernelPayload
import Idealize.ShloMosaic.Lib.StableHlo.Run

set_option maxRecDepth 16384

noncomputable section

namespace Cert.Cosine.Blocks

open Cert.KernelIdeal Cert.KernelIdeal.Gen Idealize.ShloMosaic Idealize.ShloMosaic.TcCoe Idealize.SL.Sem
open Idealize.ShloMosaic.ValueIdx Idealize.ShloMosaic.StableHlo Cert.Cosine
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-! ## The weights the kernel reads -/

/-- The row of weights as the region finds it: the weight column, reshaped by the host. -/
theorem weights_eq (c : Dev nD) :
    (V m c main_v0 : S1x1024.Idx → EReal) = shapeCast S1x1024 (m ((c : Thread nD τ).loc main_arg2)) shapeCasts_S1024x1_S1x1024 := by
  dsimp only [Gen.V, Gen.hostOps0]; after_results; rfl

/-- Feature `d` of that row is entry `(d, 0)` of the column. -/
theorem weights_at (c : Dev nD) (d : Fin 1024) :
    (V m c main_v0 : S1x1024.Idx → EReal) (ix2 (0 : Fin 1) d)
      = (m ((c : Thread nD τ).loc main_arg2) : S1024x1.Idx → EReal) (ix2 d (0 : Fin 1)) := by
  rw [weights_eq]
  exact shapeCast_apply _ shapeCasts_S1024x1_S1x1024 _ _ (by
    rw [Shape.rowMajor_val_two, Shape.rowMajor_val_two]
    show d.val * 1 + 0 = 0 * 1024 + d.val
    omega)

/-! ## What the result array is to hold -/

/-- The cosine of the rows of the two sequence arrays as the region finds them, the weights read down the column. -/
abbrev target (c : Dev nD) : S16x1024x1024.Idx → EReal :=
  cosine (V m c main_arg0) (V m c main_arg1) (m ((c : Thread nD τ).loc main_arg2))

/-! ## The block indices over the grid -/

/-- Decided over the 64 points: the weights' block never moves; the `a` block has the result block's batch and row
    half, the `b` block its batch and column half, both with all the features; and the result's block indices stay in
    their ranges. -/
theorem idx_facts : ∀ t : Fin cfg0.N,
    win0_0.index t (0 : Fin 2) = 0 ∧ win0_0.index t (1 : Fin 2) = 0
    ∧ win0_1.index t (0 : Fin 3) = win0_3.index t (0 : Fin 3) ∧ win0_1.index t (1 : Fin 3) = win0_3.index t (1 : Fin 3)
    ∧ win0_1.index t (2 : Fin 3) = 0
    ∧ win0_2.index t (0 : Fin 3) = win0_3.index t (0 : Fin 3) ∧ win0_2.index t (1 : Fin 3) = win0_3.index t (2 : Fin 3)
    ∧ win0_2.index t (2 : Fin 3) = 0
    ∧ win0_3.index t (0 : Fin 3) ≤ 15 ∧ win0_3.index t (1 : Fin 3) ≤ 1 ∧ win0_3.index t (2 : Fin 3) ≤ 1 :=
  (by decide +kernel : ∀ t : Fin grid0.N, _)

/-- Every block of the result is some point's. -/
theorem idx_onto : ∀ (q0 : Fin 16) (q1 : Fin 2) (q2 : Fin 2), ∃ t : Fin cfg0.N, win0_3.index t = ![q0.val, q1.val, q2.val] :=
  (by decide +kernel : ∀ (q0 : Fin 16) (q1 : Fin 2) (q2 : Fin 2), ∃ t : Fin grid0.N, win0_3.index t = ![q0.val, q1.val, q2.val])

/-! ## What a point writes back -/

/-- WHAT POINT `t` WRITES BACK is block `t` of the target. -/
theorem flushed_eq (c : Dev nD) (t : Fin cfg0.N) :
    (dats m 0 c).flushed 3 t = ((cfg0.win 3).blk t).view.read (Elt Ideal) (target m c) := by
  rw [Cert.KernelIdeal.Value.flushed3]
  unfold out0_3
  rw [View.canon_unit_zero zero3]
  simp only [View.ld_unit_zero (S := S1x1024) zero2, View.ld_unit_zero (S := S1x512x1024) zero3]
  obtain ⟨e00, e01, e10, e11, e12, e20, e21, e22, -, -, -⟩ := idx_facts t
  funext j
  obtain ⟨u, r, q, rfl⟩ : ∃ (u : Fin 1) (r q : Fin 512), j = ix3 u r q := ⟨j 0, j 1, j 2, eq_ix3 j⟩
  have hu : u.val = 0 := by omega
  show k0_pay1 (F := Ideal) (iblk m c 0 t) (iblk m c 1 t) (iblk m c 2 t) (ix3 u r q)
    = target m c (((cfg0.win 3).blk t).view.emb (ix3 u r q))
  refine (Body.payload_apply (iblk m c 0 t) (iblk m c 1 t) (iblk m c 2 t) u r q).trans ?_
  show cosOf _ _ _ = cosOf _ _ _
  congr 1
  · funext d
    show V m c main_arg0 (((cfg0.win 1).blk t).view.emb (ix3 (0 : Fin 1) r d))
      = V m c main_arg0 (ix3 ((((cfg0.win 3).blk t).view.emb (ix3 u r q)) 0) ((((cfg0.win 3).blk t).view.emb (ix3 u r q)) 1) d)
    refine congrArg _ (funext fun a => Fin.ext ?_)
    match a with
    | ⟨0, _⟩ => show win0_1.index t (0 : Fin 3) * 1 + 1 * 0 = win0_3.index t (0 : Fin 3) * 1 + 1 * u.val; omega
    | ⟨1, _⟩ => show win0_1.index t (1 : Fin 3) * 512 + 1 * r.val = win0_3.index t (1 : Fin 3) * 512 + 1 * r.val; omega
    | ⟨2, _⟩ => show win0_1.index t (2 : Fin 3) * 1024 + 1 * d.val = d.val; omega
  · funext d
    show V m c main_arg1 (((cfg0.win 2).blk t).view.emb (ix3 (0 : Fin 1) q d))
      = V m c main_arg1 (ix3 ((((cfg0.win 3).blk t).view.emb (ix3 u r q)) 0) ((((cfg0.win 3).blk t).view.emb (ix3 u r q)) 2) d)
    refine congrArg _ (funext fun a => Fin.ext ?_)
    match a with
    | ⟨0, _⟩ => show win0_2.index t (0 : Fin 3) * 1 + 1 * 0 = win0_3.index t (0 : Fin 3) * 1 + 1 * u.val; omega
    | ⟨1, _⟩ => show win0_2.index t (1 : Fin 3) * 512 + 1 * q.val = win0_3.index t (2 : Fin 3) * 512 + 1 * q.val; omega
    | ⟨2, _⟩ => show win0_2.index t (2 : Fin 3) * 1024 + 1 * d.val = d.val; omega
  · funext d
    refine Eq.trans ?_ (weights_at m c d)
    show V m c main_v0 (((cfg0.win 0).blk t).view.emb (ix2 (0 : Fin 1) d)) = V m c main_v0 (ix2 (0 : Fin 1) d)
    refine congrArg _ (funext fun a => Fin.ext ?_)
    match a with
    | ⟨0, _⟩ => show win0_0.index t (0 : Fin 2) * 1 + 1 * 0 = 0; omega
    | ⟨1, _⟩ => show win0_0.index t (1 : Fin 2) * 1024 + 1 * d.val = d.val; omega

/-! ## The blocks tile the result -/

/-- An index of the result is in point `t`'s block iff each coordinate is in the block's range on its axis. -/
theorem mem_blk (t : Fin cfg0.N) (i : S16x1024x1024.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v1).slice (win0_3.rect t)).set ↔ _
  rw [View.set_slice_whole, Rect.mem_set_unit]
  exact Iff.rfl

/-- Every index of the result is in the block of the point with its batch, its row half and its column half. -/
theorem cover (i : S16x1024x1024.Idx) :
    ∃ t : Fin cfg0.N, (cfg0.win 3).flush t = true ∧ i ∈ ((cfg0.win 3).blk t).view.set := by
  have h0 : (i 0).val < 16 := (i 0).isLt
  have h1 : (i 1).val < 1024 := (i 1).isLt
  have h2 : (i 2).val < 1024 := (i 2).isLt
  obtain ⟨t, ht⟩ := idx_onto ⟨(i 0).val, h0⟩ ⟨(i 1).val / 512, by omega⟩ ⟨(i 2).val / 512, by omega⟩
  have q0 : win0_3.index t (0 : Fin 3) = (i 0).val := congrFun ht 0
  have q1 : win0_3.index t (1 : Fin 3) = (i 1).val / 512 := congrFun ht 1
  have q2 : win0_3.index t (2 : Fin 3) = (i 2).val / 512 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-! ## The result array after the run -/

/-- THE RESULT ARRAY after the run is the cosine function of the three argument arrays as launched. -/
theorem final (c : Dev nD) :
    (dats m 0 c).arrAt 3 cfg0.N
      = cosine (m ((c : Thread nD τ).loc main_arg0)) (m ((c : Thread nD τ).loc main_arg1)) (m ((c : Thread nD τ).loc main_arg2)) := by
  rw [(dats m 0 c).arrAt_eq_of_cover 3 (target m c) (fun t _ => flushed_eq m c t) cover]
  unfold target
  rw [V_main_arg0, V_main_arg1]

/-- The kernel's run re-posted: the result array at the cosine function of the arguments, the arguments unchanged. -/
theorem run : θ_run defs (onTc (τ := τ) (main (F := Ideal))) ⟨m, fun _ => 0, ρ⟩ fun r => ∀ c : Dev nD,
      r.2.mem ((c : Thread nD τ).loc main_v1)
        = cosine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Cosine.Blocks

end
-- ==== Proof.lean ====
/-
  A kernel-weighted cosine-similarity matrix: the Pallas kernel against its jnp reference, over the extended reals.

  Inputs: two batches of sequences `a, b : f32[16, 1024, 1024]` (batch, position, feature) and one weight per feature,
  given as a column `kernel : f32[1024, 1]`. Both programs multiply every row of `a` and of `b` feature by feature
  with the weights, scale each weighted row by the reciprocal square root of its squared Euclidean length floored at the
  same single-precision constant (about 1e-12), and return, for every batch, the matrix of inner products of the scaled
  rows of `a` with the scaled rows of `b`.

  The reference does this on whole arrays and contracts the feature axis batch by batch. The kernel tiles the result in
  512 × 512 blocks over a grid of (batch, row half, column half); at a point it loads the weights (the column reshaped
  to a row by the host), 512 rows of `a` and 512 rows of `b`, normalises both blocks, rounds them to bf16 and
  multiplies them on the matrix unit into a zero accumulator. On the extended reals the rounding is the identity and a
  lane sum, a host sum and either matrix product are plain finite sums, so both programs compute, entry by entry, ONE
  function of the arguments, `Cert.Cosine.cosine` (Proof/Spec.lean): no algebraic law beyond reading the same sum is
  needed, and the finiteness of the inputs is never used.

  Proof/RefSide.lean reads the reference's run at an index as that function; Proof/KernelPayload.lean reads the entry
  the kernel body stores as the cosine of two rows of its blocks; Proof/KernelBlocks.lean identifies a block's rows with
  the arrays' rows and shows that the 64 blocks tile the result. The idealized kernel is the kernel's own text read on
  the extended reals (no rewrite was applied), so there is nothing to preserve.
-/
import proofs.«109407_j21715354648692_1_alg».proof.Defs
import proofs.«109407_j21715354648692_1_alg».proof.Proof.Gen.Kernel
import proofs.«109407_j21715354648692_1_alg».proof.Proof.Gen.Kernel.Skeleton
import proofs.«109407_j21715354648692_1_alg».proof.Proof.Gen.Kernel.Launch
import proofs.«109407_j21715354648692_1_alg».proof.Proof.Gen.Kernel.Points
import proofs.«109407_j21715354648692_1_alg».proof.Proof.Gen.Kernel.Frame
import proofs.«109407_j21715354648692_1_alg».proof.Proof.Gen.KernelIdeal
import proofs.«109407_j21715354648692_1_alg».proof.Proof.Gen.KernelIdeal.Skeleton
import proofs.«109407_j21715354648692_1_alg».proof.Proof.Gen.KernelIdeal.Launch
import proofs.«109407_j21715354648692_1_alg».proof.Proof.Gen.KernelIdeal.Points
import proofs.«109407_j21715354648692_1_alg».proof.Proof.Gen.KernelIdeal.Frame
import proofs.«109407_j21715354648692_1_alg».proof.Proof.Gen.ReferenceIdeal
import proofs.«109407_j21715354648692_1_alg».proof.Proof.Gen.Pre_finite_inputs
import proofs.«109407_j21715354648692_1_alg».proof.Proof.Gen.KernelIdeal.Value
import proofs.«109407_j21715354648692_1_alg».proof.Proof.Gen.ReferenceIdeal.Run
import proofs.«109407_j21715354648692_1_alg».proof.Proof.Gen.ReferenceIdeal.Read
import proofs.«109407_j21715354648692_1_alg».proof.Proof.RefSide
import proofs.«109407_j21715354648692_1_alg».proof.Proof.KernelBlocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result array at the cosine function of
    those arguments: the kernel block by block, the reference operation by operation. -/
theorem algebraic : Cert.algebraic_KernelIdeal_ReferenceIdeal := by
  intro m ρ m' ρ' _ hagree
  refine ⟨fun c => Cert.Cosine.cosine (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Cosine.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2]
  funext i
  exact Cert.Cosine.Ref.result_at _ _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
